-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S16x1024 : Shape := ⟨2, ![16, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S16x1024 : S_.BroadcastsInDim S16x1024 (![] : Fin 0 → Fin S16x1024.rank)
  reducesTo_S16x1024_S_d0_1 : S16x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024x1024 .f32) (main_arg5 : FVec F S16x1024 .f32) (main_arg6 : FVec F S1024x1024 .f32) (main_arg7 : FVec F S1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S16x1024 .f32 := Host.absf main_arg5
  let main_cst_8 : FVec F S_ .f32 := constant S_ .f32 0x7F800000#32
  let main_v25 : FVec F S16x1024 .f32 := broadcastInDim S16x1024 ![] bcast_S_S16x1024 main_cst_8
  let main_v26 : IVec S16x1024 1 := cmpf .olt main_v24 main_v25
  let main_c_9 : IVec S_ 1 := constantI S_ 1 1#1
  let main_v27 : IVec S_ 1 := (fun x v => Host.reduce IntOp.andi x v reducesTo_S16x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_v33

def fn {F : FTy → Type} [FloatOps F] (main_arg0 : FVec F S4x4096x1024 .f32) (main_arg1 : FVec F S1024x1024 .f32) (main_arg2 : FVec F S1024x1024 .f32) (main_arg3 : FVec F S1024x1024 .f32) (main_arg4 : FVec F S1024x1024 .f32) (main_arg5 : FVec F S16x1024 .f32) (main_arg6 : FVec F S1024x1024 .f32) (main_arg7 : FVec F S1024 .f32) (main_arg8 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x4096x1024 : Shape := ⟨3, ![4, 4096, 1024]⟩
abbrev S1024x1024 : Shape := ⟨2, ![1024, 1024]⟩
abbrev S16x1024 : Shape := ⟨2, ![16, 1024]⟩
abbrev S1024 : Shape := ⟨1, ![1024]⟩
abbrev S16384x1024 : Shape := ⟨2, ![16384, 1024]⟩
abbrev S512x1024 : Shape := ⟨2, ![512, 1024]⟩
abbrev S512 : Shape := ⟨1, ![512]⟩
abbrev S512x1 : Shape := ⟨2, ![512, 1]⟩
abbrev S1x1024 : Shape := ⟨2, ![1, 1024]⟩

abbrev nBuf : Space → Nat
  | .hbm => 15
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S16x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S16384x1024, .f32⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S16384x1024, .f32⟩
  | .hbm, ⟨14, _⟩ => ⟨S4x4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024, .f32⟩
  | .local _ .vmem, ⟨6, _⟩ => ⟨S1024, .f32⟩
  | .local _ .vmem, ⟨7, _⟩ => ⟨S512x1024, .f32⟩
  | .local _ .vmem, ⟨8, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S4x4096x1024_S16384x1024 : S4x4096x1024.ShapeCasts S16384x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S512x1024_S512 : S512x1024.Reduces [1] S512
  shapeCasts_S512_S512x1 : S512.ShapeCasts S512x1
  broadcasts_S512x1_S512x1024 : S512x1.Broadcasts S512x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  shapeCasts_S16384x1024_S4x4096x1024 : S16384x1024.ShapeCasts S4x4096x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S16384x1024.size a
  hwx0_6 : ∀ i : grid0.Coords, EltTy.bits .f32 = 32 ∨ (Rect.block (s := S16384x1024) S512x1024.size (cc0_transform_6 i) (hinb0_6 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S16x1024 : Shape := ⟨2, ![16, 1024]⟩
abbrev S1024 : Shape := ⟨1, ![1024]⟩
abbrev S4x4096x16 : Shape := ⟨3, ![4, 4096, 16]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 73
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S16x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S4x4096x1024, .f32⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S4x4096x16, .f32⟩
  | .hbm, ⟨14, _⟩ => ⟨S4x4096x1024, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S_, .f32⟩
  | .hbm, ⟨27, _⟩ => ⟨S4x4096x1024, .f32⟩
  | .hbm, ⟨28, _⟩ => ⟨S4x4096x1024, .f32⟩
  | .hbm, ⟨29, _⟩ => ⟨S_, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x16, .f32⟩
  | .hbm, ⟨34, _⟩ => ⟨S4x4096x16, .f32⟩
  | .hbm, ⟨35, _⟩ => ⟨S_, .f32⟩
  | .hbm, ⟨36, _⟩ => ⟨S4x4096x16, .f32⟩
  | .hbm, ⟨37, _⟩ => ⟨S4x4096x16, .f32⟩
  | .hbm, ⟨38, _⟩ => ⟨S_, .f32⟩
  | .hbm, ⟨39, _⟩ => ⟨S4x4096x16, .f32⟩
  | .hbm, ⟨40, _⟩ => ⟨S4x4096x16, .f32⟩
  | .hbm, ⟨41, _⟩ => ⟨S4x4096x1024, .f32⟩
  | .hbm, ⟨42, _⟩ => ⟨S4x4096x1024, .f32⟩
  | .hbm, ⟨43, _⟩ => ⟨S4x4096x1024, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S4x4096x1024, .f32⟩
  | .hbm, ⟨51, _⟩ => ⟨S4x4096x1024, .f32⟩
  | .hbm, ⟨52, _⟩ => ⟨S4x4096x1024, .f32⟩
  | .hbm, ⟨53, _⟩ => ⟨S_, .f32⟩
  | .hbm, ⟨54, _⟩ => ⟨S4x4096, .f32⟩
  | .hbm, ⟨55, _⟩ => ⟨S4x4096x1, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S4x4096x1024, .f32⟩
  | .hbm, ⟨60, _⟩ => ⟨S4x4096x1024, .f32⟩
  | .hbm, ⟨61, _⟩ => ⟨S_, .f32⟩
  | .hbm, ⟨62, _⟩ => ⟨S4x4096x1, .f32⟩
  | .hbm, ⟨63, _⟩ => ⟨S4x4096x1, .f32⟩
  | .hbm, ⟨64, _⟩ => ⟨S4x4096x1, .f32⟩
  | .hbm, ⟨65, _⟩ => ⟨S4x4096x1024, .f32⟩
  | .hbm, ⟨66, _⟩ => ⟨S4x4096x1024, .f32⟩
  | .hbm, ⟨67, _⟩ => ⟨S1x1x1024, .f32⟩
  | .hbm, ⟨68, _⟩ => ⟨S4x4096x1024, .f32⟩
  | .hbm, ⟨69, _⟩ => ⟨S4x4096x1024, .f32⟩
  | .hbm, ⟨70, _⟩ => ⟨S1x1x1024, .f32⟩
  | .hbm, ⟨71, _⟩ => ⟨S4x4096x1024, .f32⟩
  | .hbm, ⟨72, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_call0_v2 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_call1_v0 : Ref sig .tc := ⟨.hbm, 24, rfl⟩
abbrev main_call1_v1 : Ref sig .tc := ⟨.hbm, 25, rfl⟩
abbrev main_call1_cst : Ref sig .tc := ⟨.hbm, 26, rfl⟩
abbrev main_call1_v2 : Ref sig .tc := ⟨.hbm, 27, rfl⟩
abbrev main_call1_v3 : Ref sig .tc := ⟨.hbm, 28, rfl⟩
abbrev main_call1_cst_0 : Ref sig .tc := ⟨.hbm, 29, rfl⟩
abbrev main_call1_v4 : Ref sig .tc := ⟨.hbm, 30, rfl⟩
abbrev main_call1_v5 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst_0 : Ref sig .tc := ⟨.hbm, 35, rfl⟩
abbrev main_v13 : Ref sig .tc := ⟨.hbm, 36, rfl⟩
abbrev main_v14 : Ref sig .tc := ⟨.hbm, 37, rfl⟩
abbrev main_cst_1 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_cst_2 : Ref sig .tc := ⟨.hbm, 44, rfl⟩
abbrev main_v20 : Ref sig .tc := ⟨.hbm, 45, rfl⟩
abbrev main_v21 : Ref sig .tc := ⟨.hbm, 46, rfl⟩
abbrev main_cst_3 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_4 : Ref sig .tc := ⟨.hbm, 53, rfl⟩
abbrev main_v27 : Ref sig .tc := ⟨.hbm, 54, rfl⟩
abbrev main_v28 : Ref sig .tc := ⟨.hbm, 55, rfl⟩
abbrev main_cst_5 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_6 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩

abbrev nD : Nat := 1
abbrev τ : Topo := Topo.v7x

variable {F : FTy → Type} [FloatOps F]

class Facts₀ : Prop where
  reducesTo_S4x4096x1024_S4x4096_d2 : S4x4096x1024.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x1024_0_1_2 : S4x4096x1.BroadcastsInDim S4x4096x1024 (![0, 1, 2] : Fin 3 → Fin S4x4096x1024.rank)
  bcast_S_S4x4096x1024 : S_.BroadcastsInDim S4x4096x1024 (![] : Fin 0 → Fin S4x4096x1024.rank)
  bcast_S_S4x4096x16 : S_.BroadcastsInDim S4x4096x16 (![] : Fin 0 → Fin S4x4096x16.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  dot_S4x4096x1024_S1024x1024_S4x4096x1024_2_1_01_0_n_n_wf : DotDims.WF S4x4096x1024 S1024x1024 S4x4096x1024 [2] [1] [0, 1] [0] [] []
  dot_S4x4096x1024_S16x1024_S4x4096x16_2_1_01_0_n_n_wf : DotDims.WF S4x4096x1024 S16x1024 S4x4096x16 [2] [1] [0, 1] [0] [] []

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x1024_S16x1024_S4x4096x16_2_1_01_0_n_n : DotDims S4x4096x1024 S16x1024 S4x4096x16 where
  lhsContracting := [2]
  rhsContracting := [1]
  lhsNonContracting := [0, 1]
  rhsNonContracting := [0]
  lhsBatch := []
  rhsBatch := []
  wf := dot_S4x4096x1024_S16x1024_S4x4096x16_2_1_01_0_n_n_wf

class Facts : Prop extends Facts₀ where

variable [Facts]
-- ==== Proof.Spec.lean ====
/-
  The function both programs compute, one output row at a time, on the extended reals.

  For a row `x : Fin 1024 → EReal` of the activations and weight matrices `Wv`, `Wg`, `Wo` stored output-major
  (`W o d`: output feature `o`, input feature `d`):
    value     V o   = ∑ d, x d · Wv o d
    gate      g o   = ∑ d, x d · Wg o d
    gated     h o   = V o · (g o · logistic (g o))                       (silu of the gate, times the value)
    residual  p e   = (∑ v, h v · Wo e v) + x e
    mean      μ     = (∑ e, p e) / 1024
    centred   c e   = p e − μ
    variance  σ²    = (∑ e, c e · c e) / 1024
    result    y q   = (c q · rsqrt (σ² + ε)) · γ q + β q
  with `1024` and `ε` the two f32 words both programs print (0x44800000, 0x3727C5AC), kept as words: the same
  word on both sides is never evaluated. The whole result array is this row function at every (batch, position).
-/
import Idealize.ShloMosaic.PureOps.Ideal
import Idealize.ShloMosaic.Lib.ValueIdx

noncomputable section

namespace Cert.GatedNorm

open Idealize.ShloMosaic Idealize.ShloMosaic.ValueIdx

/-- A row times a matrix stored output-major: `(u · Wᵀ) o = ∑ d, u d · W o d`. -/
def proj (u : Fin 1024 → EReal) (W : Fin 1024 → Fin 1024 → EReal) (o : Fin 1024) : EReal :=
  ∑ d : Fin 1024, u d * W o d

/-- The value projection times the silu of the gate projection. -/
def gated (x : Fin 1024 → EReal) (Wv Wg : Fin 1024 → Fin 1024 → EReal) (o : Fin 1024) : EReal :=
  proj x Wv o * (proj x Wg o * Ideal.logistic (proj x Wg o))

/-- The output projection of the gated row, plus the residual. -/
def resid (x : Fin 1024 → EReal) (Wv Wg Wo : Fin 1024 → Fin 1024 → EReal) (e : Fin 1024) : EReal :=
  proj (gated x Wv Wg) Wo e + x e

/-- The row's mean: its sum over the 1024 features divided by the word for 1024. -/
def mean (p : Fin 1024 → EReal) : EReal :=
  Ideal.div (∑ e : Fin 1024, p e) (Ideal.ofBits .f32 0x44800000#32)

/-- The row centred at its mean. -/
def centred (p : Fin 1024 → EReal) (e : Fin 1024) : EReal := p e - mean p

/-- Layer normalisation of a row `p` with scale `γ` and shift `β`: the centred row times the reciprocal root of
    its variance plus `ε`, then scaled and shifted. -/
def layerNorm (p γ β : Fin 1024 → EReal) (q : Fin 1024) : EReal :=
  centred p q * Ideal.rsqrt (mean (fun e => centred p e * centred p e) + Ideal.ofBits .f32 0x3727C5AC#32) * γ q + β q

/-- One output row. -/
def rowOut (x : Fin 1024 → EReal) (Wv Wg Wo : Fin 1024 → Fin 1024 → EReal) (γ β : Fin 1024 → EReal) (q : Fin 1024) : EReal :=
  layerNorm (resid x Wv Wg Wo) γ β q

/-- The whole result: row (b, s) of the output is `rowOut` of row (b, s) of the activations. -/
def result (x : (⟨3, ![4, 4096, 1024]⟩ : Shape).Idx → EReal) (Wv Wg Wo : (⟨2, ![1024, 1024]⟩ : Shape).Idx → EReal)
    (γ β : (⟨1, ![1024]⟩ : Shape).Idx → EReal) : (⟨3, ![4, 4096, 1024]⟩ : Shape).Idx → EReal :=
  fun i => rowOut (fun d => x (ix3 (i 0) (i 1) d)) (fun o d => Wv (ix2 o d)) (fun o d => Wg (ix2 o d))
    (fun o d => Wo (ix2 o d)) (fun q => γ (ix1 q)) (fun q => β (ix1 q)) (i 2)

end Cert.GatedNorm

end
-- ==== Proof.KernelRow.lean ====
/-
  The kernel's block of 512 output rows, read one entry at a time.

  The body's arithmetic is one pure term of the loaded blocks (the skeleton's payload). Here it is split into the
  pieces the mathematics has — a matrix product read as a sum over the contracted feature, a lane sum read as a sum
  over the row's 1024 features, a column of row statistics kept as [512, 1] and spread back over the row, a [1024]
  vector spread over the rows — and each piece is read at an index (p, q): row p of the block, feature q. Row p of
  the block's result is the specification's row function of row p of the activations block: nothing in it looks
  at another row.
-/
import proofs.«120194_j62302795596568_1_alg».proof.Proof.Gen.KernelIdeal.Skeleton
import proofs.«120194_j62302795596568_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RowValue

open Cert.KernelIdeal Cert.KernelIdeal.Gen Idealize.ShloMosaic Idealize.ShloMosaic.ValueIdx Cert.GatedNorm

/-! ## A matrix product into a zero accumulator, read at an index

Both operands are contracted over their second axis: entry (p, o) of the product is the sum over the feature k of
the left operand at (p, k) times the right operand at (o, k). -/

theorem lhs_row (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_contr (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_row (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_contr (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

theorem matmul_row {φ₁ φ₂ : FTy} (l : FVec Ideal S512x1024 φ₁) (r : FVec Ideal S1024x1024 φ₂) (p : Fin 512) (o : Fin 1024) :
    matmul dot_S512x1024_S1024x1024_S512x1024_1_1_0_0_n_n none l r (constant (F := Ideal) S512x1024 .f32 0x00000000#32) (ix2 p o)
      = ∑ k : Fin 1024, l (ix2 p k) * r (ix2 o k) := by
  simp only [matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 p o) ((contrEquiv1 dot_S512x1024_S1024x1024_S512x1024_1_1_0_0_n_n 1024 rfl rfl).symm k) = ix2 p k := funext fun a => Fin.ext (by
    match a with
    | ⟨0, _⟩ => exact lhs_row _ _
    | ⟨1, _⟩ => exact (lhs_contr _ _).trans hk)
  have er : dot_S512x1024_S1024x1024_S512x1024_1_1_0_0_n_n.rhsIdx (ix2 p o) ((contrEquiv1 dot_S512x1024_S1024x1024_S512x1024_1_1_0_0_n_n 1024 rfl rfl).symm k) = ix2 o k := funext fun a => Fin.ext (by
    match a with
    | ⟨0, _⟩ => exact rhs_row _ _
    | ⟨1, _⟩ => exact (rhs_contr _ _).trans hk)
  rw [el, er]

/-! ## A lane sum, a column of row statistics, a vector spread over the rows -/

/-- The sum over the lanes of row p is the sum over the row's 1024 features. -/
theorem laneSum (src : FVec Ideal S512x1024 .f32) (acc : BitVec 32) (hφ : FKind.Formats .f32) (hacc : acc = FKind.add.neutral .f32 hφ)
    (p : Fin 512) :
    multiReduction (F := Ideal) .add [1] S512 src acc reduces_S512x1024_S512 hφ hacc (ix1 p) = ∑ k : Fin 1024, src (ix2 p k) := by
  refine (Ideal.multiReduction_add_single src acc reduces_S512x1024_S512 hφ hacc (ix1 p)).trans ?_
  exact Finset.sum_congr rfl fun k _ => congrArg src (funext fun a => Fin.ext (by
    match a with
    | ⟨0, _⟩ => rfl
    | ⟨1, _⟩ => rfl))

/-- A [512] vector kept as a [512, 1] column reads its row. -/
theorem col_cast {α : Type} (v : S512.Idx → α) (h : S512.ShapeCasts S512x1) (p : Fin 512) (u : Fin 1) :
    shapeCast S512x1 v h (ix2 p u) = v (ix1 p) :=
  shapeCast_apply v h _ _ (by
    have hu : u.val = 0 := by omega
    rw [Shape.rowMajor_val_two, Shape.rowMajor_val_one]
    show p.val = p.val * 1 + u.val
    omega)

/-- A [512, 1] column spread over the 1024 features reads its row's one entry. -/
theorem col_bcast {α : Type} (v : S512x1.Idx → α) (h : S512x1.Broadcasts S512x1024) (p : Fin 512) (q : Fin 1024) :
    broadcastTo S512x1024 v h (ix2 p q) = v (ix2 p (0 : Fin 1)) := by
  refine broadcastTo_apply v h (ix2 p q) (ix2 p (0 : Fin 1)) fun ax => ?_
  match ax with
  | ⟨0, _⟩ =>
    show p.val = if (512 : Nat) = 1 then 0 else p.val
    rw [if_neg (by decide)]
  | ⟨1, _⟩ =>
    show 0 = if (1 : Nat) = 1 then 0 else q.val
    rw [if_pos rfl]

/-- A [1024] vector viewed [1, 1024] and spread over the 512 rows reads its feature. -/
theorem row_bcast {α : Type} (v : S1024.Idx → α) (h₁ : S1024.ShapeCasts S1x1024) (h₂ : S1x1024.Broadcasts S512x1024)
    (p : Fin 512) (q : Fin 1024) :
    broadcastTo S512x1024 (shapeCast S1x1024 v h₁) h₂ (ix2 p q) = v (ix1 q) :=
  (broadcastTo_1b_ab_apply _ h₂ p q).trans (shapeCast_a_1a_apply v h₁ 0 q)

theorem logistic_apply {s : Shape} {φ : FTy} (v : FVec Ideal s φ) (i : s.Idx) : logistic v i = Ideal.logistic (v i) := rfl
theorem rsqrt_apply {s : Shape} {φ : FTy} (v : FVec Ideal s φ) (i : s.Idx) : rsqrt v i = Ideal.rsqrt (v i) := rfl

end Cert.KernelIdeal.RowValue

end
-- ==== Proof.KernelBlock.lean ====
/-
  The kernel's block as the specification's row function.

  The payload is restated in the pieces the mathematics has, each a small definition over the same operations the
  body prints, so that the payload IS their composition by unfolding: the product of a block with a weight matrix,
  the residual block (value times silu of the gate, projected, plus the activations), the column of row means, the
  centred block, and the normalised block. Each piece read at (p, q) is the matching piece of the specification of
  row p.
-/
import proofs.«120194_j62302795596568_1_alg».proof.Proof.KernelRow

noncomputable section

namespace Cert.KernelIdeal.RowValue

open Cert.KernelIdeal Cert.KernelIdeal.Gen Idealize.ShloMosaic Idealize.ShloMosaic.ValueIdx Cert.GatedNorm

/-- Row p of a [512, 1024] block. -/
abbrev rowOf (P : FVec Ideal S512x1024 .f32) (p : Fin 512) : Fin 1024 → EReal := fun e => P (ix2 p e)
/-- A [1024, 1024] matrix by its two coordinates. -/
abbrev matOf (w : FVec Ideal S1024x1024 .bf16) : Fin 1024 → Fin 1024 → EReal := fun o d => w (ix2 o d)
/-- A [1024] vector by its coordinate. -/
abbrev vecOf (v : FVec Ideal S1024 .f32) : Fin 1024 → EReal := fun q => v (ix1 q)

/-! ## The pieces -/

/-- A block times a loaded weight matrix, into a zero accumulator. -/
def mmBlk (l : FVec Ideal S512x1024 .bf16) (w : FVec Ideal S1024x1024 .bf16) : FVec Ideal S512x1024 .f32 :=
  matmul dot_S512x1024_S1024x1024_S512x1024_1_1_0_0_n_n none l (shapeCast S1024x1024 w shapeCasts_S1024x1024_S1024x1024) (constant S512x1024 .f32 0x00000000#32)

theorem mmBlk_apply (l : FVec Ideal S512x1024 .bf16) (w : FVec Ideal S1024x1024 .bf16) (p : Fin 512) (o : Fin 1024) :
    mmBlk l w (ix2 p o) = ∑ k : Fin 1024, l (ix2 p k) * w (ix2 o k) := by
  unfold mmBlk
  rw [shapeCast_self]
  exact matmul_row l w p o

/-- The activations block as the products read it. -/
def xbf (x : FVec Ideal S512x1024 .f32) : FVec Ideal S512x1024 .bf16 :=
  truncf .bf16 (shapeCast S512x1024 x shapeCasts_S512x1024_S512x1024) bitsLt_bf16_f32

theorem xbf_apply (x : FVec Ideal S512x1024 .f32) (i : S512x1024.Idx) : xbf x i = x i := by
  unfold xbf
  rw [shapeCast_self]
  rfl

/-- The block before normalisation: value times silu of the gate, projected, plus the activations. -/
def resBlk (x : FVec Ideal S512x1024 .f32) (wv wg wo : FVec Ideal S1024x1024 .bf16) : FVec Ideal S512x1024 .f32 :=
  addf
    (mmBlk (truncf .bf16 (mulf (mmBlk (xbf x) wv) (mulf (mmBlk (xbf x) wg) (logistic (mmBlk (xbf x) wg)))) bitsLt_bf16_f32) wo)
    (shapeCast S512x1024 x shapeCasts_S512x1024_S512x1024)

theorem resBlk_apply (x : FVec Ideal S512x1024 .f32) (wv wg wo : FVec Ideal S1024x1024 .bf16) (p : Fin 512) (e : Fin 1024) :
    resBlk x wv wg wo (ix2 p e) = resid (rowOf x p) (matOf wv) (matOf wg) (matOf wo) e := by
  unfold resBlk resid
  rw [shapeCast_self]
  show mmBlk _ wo (ix2 p e) + x (ix2 p e) = _
  rw [mmBlk_apply]
  refine congrArg (· + x (ix2 p e)) ?_
  unfold proj
  refine Finset.sum_congr rfl fun v _ => ?_
  refine congrArg (· * wo (ix2 e v)) ?_
  show mmBlk (xbf x) wv (ix2 p v) * (mmBlk (xbf x) wg (ix2 p v) * Ideal.logistic (mmBlk (xbf x) wg (ix2 p v))) = _
  rw [mmBlk_apply, mmBlk_apply]
  simp only [xbf_apply]
  rfl

/-- The column of row means of a block: lane sums, kept as a column, over the word for 1024. -/
def meanCol (P : FVec Ideal S512x1024 .f32) : FVec Ideal S512x1 .f32 :=
  divf (shapeCast S512x1 (multiReduction .add [1] S512 P 0x00000000#32 reduces_S512x1024_S512 (.inl rfl) rfl) shapeCasts_S512_S512x1)
    (broadcast S512x1 (Scalar.ofBits .f32 0x44800000#32))

theorem meanCol_apply (P : FVec Ideal S512x1024 .f32) (p : Fin 512) (u : Fin 1) :
    meanCol P (ix2 p u) = mean (rowOf P p) := by
  unfold meanCol mean
  show Ideal.div (shapeCast S512x1 _ shapeCasts_S512_S512x1 (ix2 p u)) (Ideal.ofBits .f32 0x44800000#32) = _
  refine congrArg (fun z => Ideal.div z (Ideal.ofBits .f32 0x44800000#32)) ?_
  exact (col_cast _ shapeCasts_S512_S512x1 p u).trans (laneSum P _ _ _ p)

/-- A block centred at its row means. -/
def cenBlk (P : FVec Ideal S512x1024 .f32) : FVec Ideal S512x1024 .f32 :=
  subf P (broadcastTo S512x1024 (meanCol P) broadcasts_S512x1_S512x1024)

theorem cenBlk_apply (P : FVec Ideal S512x1024 .f32) (p : Fin 512) (e : Fin 1024) :
    cenBlk P (ix2 p e) = centred (rowOf P p) e := by
  unfold cenBlk centred
  show P (ix2 p e) - broadcastTo S512x1024 (meanCol P) broadcasts_S512x1_S512x1024 (ix2 p e) = _
  rw [col_bcast, meanCol_apply]

/-- The normalised block: centred, times the reciprocal root of the row variance plus ε, scaled and shifted. -/
def normBlk (P : FVec Ideal S512x1024 .f32) (γ β : FVec Ideal S1024 .f32) : FVec Ideal S512x1024 .f32 :=
  addf
    (mulf
      (mulf (cenBlk P)
        (broadcastTo S512x1024
          (rsqrt (addf (meanCol (mulf (cenBlk P) (cenBlk P))) (broadcast S512x1 (Scalar.ofBits .f32 0x3727C5AC#32))))
          broadcasts_S512x1_S512x1024))
      (broadcastTo S512x1024 (shapeCast S1x1024 γ shapeCasts_S1024_S1x1024) broadcasts_S1x1024_S512x1024))
    (broadcastTo S512x1024 (shapeCast S1x1024 β shapeCasts_S1024_S1x1024) broadcasts_S1x1024_S512x1024)

theorem normBlk_apply (P : FVec Ideal S512x1024 .f32) (γ β : FVec Ideal S1024 .f32) (p : Fin 512) (q : Fin 1024) :
    normBlk P γ β (ix2 p q) = layerNorm (rowOf P p) (vecOf γ) (vecOf β) q := by
  unfold normBlk layerNorm
  show cenBlk P (ix2 p q)
        * broadcastTo S512x1024 (rsqrt (addf (meanCol (mulf (cenBlk P) (cenBlk P))) (broadcast S512x1 (Scalar.ofBits .f32 0x3727C5AC#32)))) broadcasts_S512x1_S512x1024 (ix2 p q)
        * broadcastTo S512x1024 (shapeCast S1x1024 γ shapeCasts_S1024_S1x1024) broadcasts_S1x1024_S512x1024 (ix2 p q)
      + broadcastTo S512x1024 (shapeCast S1x1024 β shapeCasts_S1024_S1x1024) broadcasts_S1x1024_S512x1024 (ix2 p q) = _
  rw [row_bcast, row_bcast, col_bcast, cenBlk_apply]
  show centred (rowOf P p) q * Ideal.rsqrt (meanCol (mulf (cenBlk P) (cenBlk P)) (ix2 p 0) + Ideal.ofBits .f32 0x3727C5AC#32) * γ (ix1 q) + β (ix1 q) = _
  rw [meanCol_apply]
  have hsq : rowOf (mulf (cenBlk P) (cenBlk P)) p = fun e => centred (rowOf P p) e * centred (rowOf P p) e :=
    funext fun e => by
      show cenBlk P (ix2 p e) * cenBlk P (ix2 p e) = _
      rw [cenBlk_apply]
  rw [hsq]

/-! ## The payload is the composition -/

theorem pay_eq (x : FVec Ideal S512x1024 .f32) (wv wg wo : FVec Ideal S1024x1024 .bf16) (γ β : FVec Ideal S1024 .f32) :
    k0_pay1 (F := Ideal) x wv wg wo γ β = normBlk (resBlk x wv wg wo) γ β := rfl

/-- Entry (p, q) of the block the body stores is the specification's row function of row p of the activations block. -/
theorem pay_apply (x : FVec Ideal S512x1024 .f32) (wv wg wo : FVec Ideal S1024x1024 .bf16) (γ β : FVec Ideal S1024 .f32)
    (p : Fin 512) (q : Fin 1024) :
    k0_pay1 (F := Ideal) x wv wg wo γ β (ix2 p q) = rowOut (rowOf x p) (matOf wv) (matOf wg) (matOf wo) (vecOf γ) (vecOf β) q := by
  rw [pay_eq, normBlk_apply]
  unfold rowOut
  have hrow : rowOf (resBlk x wv wg wo) p = resid (rowOf x p) (matOf wv) (matOf wg) (matOf wo) :=
    funext fun e => resBlk_apply x wv wg wo p e
  rw [hrow]

end Cert.KernelIdeal.RowValue

end
-- ==== Proof.Flat.lean ====
/-
  The flattened form of the result.

  The kernel works on the activations flattened to [16384, 1024]: rows (b, s) laid out row-major, so flattened row
  4096·b + s is row (b, s). `flat` is the specification's row function at every flattened row; unflattening it gives
  the specification's result, because a row-major reshape moves whole rows and keeps the feature coordinate.
-/
import proofs.«120194_j62302795596568_1_alg».proof.Proof.Spec
import Idealize.ShloMosaic.Lib.Pipeline.Value

noncomputable section

namespace Cert.GatedNorm

open Idealize.ShloMosaic Idealize.ShloMosaic.ValueIdx

/-- The [16384, 1024] output as a function of the flattened activations, the weights and the two vectors: row r is
    the row function of row r. -/
def flat (X : (⟨2, ![16384, 1024]⟩ : Shape).Idx → EReal) (Wv Wg Wo : (⟨2, ![1024, 1024]⟩ : Shape).Idx → EReal)
    (Γ Β : (⟨1, ![1024]⟩ : Shape).Idx → EReal) : (⟨2, ![16384, 1024]⟩ : Shape).Idx → EReal :=
  fun i => rowOut (fun d => X (ix2 (i 0) d)) (fun o d => Wv (ix2 o d)) (fun o d => Wg (ix2 o d)) (fun o d => Wo (ix2 o d))
    (fun q => Γ (ix1 q)) (fun q => Β (ix1 q)) (i 1)

theorem flat_apply (X : (⟨2, ![16384, 1024]⟩ : Shape).Idx → EReal) (Wv Wg Wo : (⟨2, ![1024, 1024]⟩ : Shape).Idx → EReal)
    (Γ Β : (⟨1, ![1024]⟩ : Shape).Idx → EReal) (r : Fin 16384) (q : Fin 1024) :
    flat X Wv Wg Wo Γ Β (ix2 r q)
      = rowOut (fun d => X (ix2 r d)) (fun o d => Wv (ix2 o d)) (fun o d => Wg (ix2 o d)) (fun o d => Wo (ix2 o d))
          (fun q => Γ (ix1 q)) (fun q => Β (ix1 q)) q := rfl

/-- The flattened row of (b, s). -/
def flatRow (b : Fin 4) (s : Fin 4096) : Fin 16384 := ⟨b.val * 4096 + s.val, by have := b.isLt; have := s.isLt; omega⟩

/-- The flattened activations at flattened row 4096·b + s are the activations at (b, s). -/
theorem flatten_apply {α : Type} (x : (⟨3, ![4, 4096, 1024]⟩ : Shape).Idx → α)
    (h : (⟨3, ![4, 4096, 1024]⟩ : Shape).ShapeCasts ⟨2, ![16384, 1024]⟩) (b : Fin 4) (s : Fin 4096) (d : Fin 1024) :
    shapeCast ⟨2, ![16384, 1024]⟩ x h (ix2 (flatRow b s) d) = x (ix3 b s d) :=
  shapeCast_apply x h _ _ (by
    rw [Shape.rowMajor_val_three, Shape.rowMajor_val_two]
    show (b.val * 4096 + s.val) * 1024 + d.val = (b.val * 4096 + s.val) * 1024 + d.val
    rfl)

/-- A [16384, 1024] array unflattened reads, at (b, s, q), flattened row 4096·b + s at q. -/
theorem unflatten_apply {α : Type} (Y : (⟨2, ![16384, 1024]⟩ : Shape).Idx → α)
    (h : (⟨2, ![16384, 1024]⟩ : Shape).ShapeCasts ⟨3, ![4, 4096, 1024]⟩) (b : Fin 4) (s : Fin 4096) (q : Fin 1024) :
    shapeCast ⟨3, ![4, 4096, 1024]⟩ Y h (ix3 b s q) = Y (ix2 (flatRow b s) q) :=
  shapeCast_apply Y h _ _ (by
    rw [Shape.rowMajor_val_three, Shape.rowMajor_val_two]
    show (b.val * 4096 + s.val) * 1024 + q.val = (b.val * 4096 + s.val) * 1024 + q.val
    rfl)

/-- Unflattening the flattened result of the flattened activations is the specification's result. -/
theorem unflatten_flat (x : (⟨3, ![4, 4096, 1024]⟩ : Shape).Idx → EReal) (Wv Wg Wo : (⟨2, ![1024, 1024]⟩ : Shape).Idx → EReal)
    (Γ Β : (⟨1, ![1024]⟩ : Shape).Idx → EReal)
    (h₁ : (⟨3, ![4, 4096, 1024]⟩ : Shape).ShapeCasts ⟨2, ![16384, 1024]⟩)
    (h₂ : (⟨2, ![16384, 1024]⟩ : Shape).ShapeCasts ⟨3, ![4, 4096, 1024]⟩) :
    shapeCast ⟨3, ![4, 4096, 1024]⟩ (flat (shapeCast ⟨2, ![16384, 1024]⟩ x h₁) Wv Wg Wo Γ Β) h₂ = result x Wv Wg Wo Γ Β := by
  funext i
  obtain ⟨b, s, q, rfl⟩ : ∃ (b : Fin 4) (s : Fin 4096) (q : Fin 1024), i = ix3 b s q := ⟨i 0, i 1, i 2, eq_ix3 i⟩
  rw [unflatten_apply, flat_apply]
  have hx : (fun d => shapeCast ⟨2, ![16384, 1024]⟩ x h₁ (ix2 (flatRow b s) d)) = fun d => x (ix3 b s d) :=
    funext fun d => flatten_apply x h₁ b s d
  rw [hx]
  rfl

end Cert.GatedNorm

end
-- ==== Proof.KernelArr.lean ====
/-
  The kernel's result array.

  The grid has 32 points; point t stores rows 512·t … 512·t + 511 of the [16384, 1024] output, computed from the
  same rows of the flattened activations and from the whole weight matrices and the two vectors, which do not move
  with t. The 32 row blocks tile the output, so the output array after the region is the specification's row function
  at every row of the flattened activations. The host lines around the region only change shapes and formats: the
  activations are flattened [4, 4096, 1024] → [16384, 1024] before, the output is unflattened after, and the three
  weight matrices are converted to a narrower float format, which changes no value on the extended reals.
-/
import proofs.«120194_j62302795596568_1_alg».proof.Proof.Gen.KernelIdeal.Frame
import proofs.«120194_j62302795596568_1_alg».proof.Proof.KernelBlock
import proofs.«120194_j62302795596568_1_alg».proof.Proof.Flat
import Idealize.ShloMosaic.Lib.Pipeline.Value
import Idealize.ShloMosaic.Lib.StableHlo.Run

noncomputable section

namespace Cert.KernelIdeal.ArrValue

open Cert.KernelIdeal Cert.KernelIdeal.Gen Cert.KernelIdeal.RowValue Idealize.ShloMosaic Idealize.ShloMosaic.TcCoe Idealize.SL.Sem
open Idealize.ShloMosaic.ValueIdx Cert.GatedNorm
open Idealize.ShloMosaic.Pipeline (Dat)

variable (m : (ℓ : Loc nD τ sig) → Buf (Elt Ideal) ℓ) (ρ : Dev nD → PrngReg)

/-- The arrays the region finds, as plain functions of an index. -/
abbrev arrX (c : Dev nD) : S16384x1024.Idx → EReal := V m c main_v0
abbrev arrWv (c : Dev nD) : S1024x1024.Idx → EReal := V m c main_v1
abbrev arrWg (c : Dev nD) : S1024x1024.Idx → EReal := V m c main_v2
abbrev arrWo (c : Dev nD) : S1024x1024.Idx → EReal := V m c main_v3
abbrev arrΓ (c : Dev nD) : S1024.Idx → EReal := V m c main_arg7
abbrev arrΒ (c : Dev nD) : S1024.Idx → EReal := V m c main_arg8

theorem hz : (![0, 0] : Fin 2 → Nat) = fun _ => 0 := funext fun a => by fin_cases a <;> rfl
theorem hz1 : (![0] : Fin 1 → Nat) = fun _ => 0 := funext fun a => by fin_cases a; rfl

/-- The printed index maps over the 32 points: the activations' and the output's blocks are the t-th row block, every
    other window's block is the whole array. -/
theorem idx_facts : ∀ t : Fin cfg0.N,
    win0_0.index t (0 : Fin 2) = t.val ∧ win0_0.index t (1 : Fin 2) = 0
    ∧ win0_6.index t (0 : Fin 2) = t.val ∧ win0_6.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0 ∧ t.val < 32 :=
  (by decide +kernel : ∀ t : Fin grid0.N, _)

/-- Every row block is some point's. -/
theorem idx_onto : ∀ q0 : Fin 32, ∃ t : Fin cfg0.N, t.val = q0.val :=
  (by decide +kernel : ∀ q0 : Fin 32, ∃ t : Fin grid0.N, t.val = q0.val)

/-! ## What point t writes back -/

/-- A block of the six loaded blocks is a given function of its index as soon as every entry (p, q) of it is the row
    function of row p: the payload read at literal coordinates. -/
theorem pay_eq_of (x : FVec Ideal S512x1024 .f32) (wv wg wo : FVec Ideal S1024x1024 .bf16) (γ β : FVec Ideal S1024 .f32)
    (G : S512x1024.Idx → EReal)
    (h : ∀ (p : Fin 512) (q : Fin 1024), rowOut (rowOf x p) (matOf wv) (matOf wg) (matOf wo) (vecOf γ) (vecOf β) q = G (ix2 p q)) :
    k0_pay1 (F := Ideal) x wv wg wo γ β = G :=
  funext fun j => by
    obtain ⟨p, q, rfl⟩ : ∃ (p : Fin 512) (q : Fin 1024), j = ix2 p q := ⟨j 0, j 1, eq_ix2 j⟩
    rw [pay_apply]
    exact h p q

/-- Point t writes back block t of the flattened result. -/
theorem flushed_eq (c : Dev nD) (t : Fin cfg0.N) :
    (dats m 0 c).flushed 6 t
      = ((cfg0.win 6).blk t).view.read (Elt Ideal) (flat (arrX m c) (arrWv m c) (arrWg m c) (arrWo m c) (arrΓ m c) (arrΒ m c)) := by
  show (cfg0.win 6).cut (grid0.coords t) ((dats m 0 c).after 6 t) = _
  rw [after0_6]
  unfold out0_6
  rw [View.canon_unit_zero hz]
  simp only [View.ld_unit_zero (S := S512x1024) hz, View.ld_unit_zero (S := S1024x1024) hz, View.ld_unit_zero (S := S1024) hz1]
  obtain ⟨e00, e01, e60, e61, e10, e11, e20, e21, e30, e31, e40, e50, ht⟩ := idx_facts t
  show k0_pay1 (F := Ideal) (iblk m c 0 t) (iblk m c 1 t) (iblk m c 2 t) (iblk m c 3 t) (iblk m c 4 t) (iblk m c 5 t)
      = fun j => flat (arrX m c) (arrWv m c) (arrWg m c) (arrWo m c) (arrΓ m c) (arrΒ m c) (((cfg0.win 6).blk t).view.emb j)
  refine pay_eq_of (iblk m c 0 t) (iblk m c 1 t) (iblk m c 2 t) (iblk m c 3 t) (iblk m c 4 t) (iblk m c 5 t) _ (fun p q => ?_)
  have hr : t.val * 512 + p.val < 16384 := by have := p.isLt; omega
  have hi : ((cfg0.win 6).blk t).view.emb (ix2 p q) = ix2 (⟨t.val * 512 + p.val, hr⟩ : Fin 16384) q :=
    funext fun a => Fin.ext (by
      match a with
      | ⟨0, _⟩ => show win0_6.index t (0 : Fin 2) * 512 + 1 * p.val = t.val * 512 + p.val; omega
      | ⟨1, _⟩ => show win0_6.index t (1 : Fin 2) * 1024 + 1 * q.val = q.val; omega)
  show _ = flat (arrX m c) (arrWv m c) (arrWg m c) (arrWo m c) (arrΓ m c) (arrΒ m c) (((cfg0.win 6).blk t).view.emb (ix2 p q))
  rw [hi, flat_apply]
  have hx : rowOf (iblk m c 0 t) p = fun d => arrX m c (ix2 (⟨t.val * 512 + p.val, hr⟩ : Fin 16384) d) :=
    funext fun d => by
      show V m c main_v0 (((cfg0.win 0).blk t).view.emb (ix2 p d)) = V m c main_v0 _
      refine congrArg (V m c main_v0) (funext fun a => Fin.ext ?_)
      match a with
      | ⟨0, _⟩ => show win0_0.index t (0 : Fin 2) * 512 + 1 * p.val = t.val * 512 + p.val; omega
      | ⟨1, _⟩ => show win0_0.index t (1 : Fin 2) * 1024 + 1 * d.val = d.val; omega
  have hwv : matOf (iblk m c 1 t) = fun o d => arrWv m c (ix2 o d) :=
    funext fun o => funext fun d => by
      show V m c main_v1 (((cfg0.win 1).blk t).view.emb (ix2 o d)) = V m c main_v1 _
      refine congrArg (V m c main_v1) (funext fun a => Fin.ext ?_)
      match a with
      | ⟨0, _⟩ => show win0_1.index t (0 : Fin 2) * 1024 + 1 * o.val = o.val; omega
      | ⟨1, _⟩ => show win0_1.index t (1 : Fin 2) * 1024 + 1 * d.val = d.val; omega
  have hwg : matOf (iblk m c 2 t) = fun o d => arrWg m c (ix2 o d) :=
    funext fun o => funext fun d => by
      show V m c main_v2 (((cfg0.win 2).blk t).view.emb (ix2 o d)) = V m c main_v2 _
      refine congrArg (V m c main_v2) (funext fun a => Fin.ext ?_)
      match a with
      | ⟨0, _⟩ => show win0_2.index t (0 : Fin 2) * 1024 + 1 * o.val = o.val; omega
      | ⟨1, _⟩ => show win0_2.index t (1 : Fin 2) * 1024 + 1 * d.val = d.val; omega
  have hwo : matOf (iblk m c 3 t) = fun o d => arrWo m c (ix2 o d) :=
    funext fun o => funext fun d => by
      show V m c main_v3 (((cfg0.win 3).blk t).view.emb (ix2 o d)) = V m c main_v3 _
      refine congrArg (V m c main_v3) (funext fun a => Fin.ext ?_)
      match a with
      | ⟨0, _⟩ => show win0_3.index t (0 : Fin 2) * 1024 + 1 * o.val = o.val; omega
      | ⟨1, _⟩ => show win0_3.index t (1 : Fin 2) * 1024 + 1 * d.val = d.val; omega
  have hγ : vecOf (iblk m c 4 t) = fun q => arrΓ m c (ix1 q) :=
    funext fun q => by
      show V m c main_arg7 (((cfg0.win 4).blk t).view.emb (ix1 q)) = V m c main_arg7 _
      refine congrArg (V m c main_arg7) (funext fun a => Fin.ext ?_)
      match a with
      | ⟨0, _⟩ => show win0_4.index t (0 : Fin 1) * 1024 + 1 * q.val = q.val; omega
  have hβ : vecOf (iblk m c 5 t) = fun q => arrΒ m c (ix1 q) :=
    funext fun q => by
      show V m c main_arg8 (((cfg0.win 5).blk t).view.emb (ix1 q)) = V m c main_arg8 _
      refine congrArg (V m c main_arg8) (funext fun a => Fin.ext ?_)
      match a with
      | ⟨0, _⟩ => show win0_5.index t (0 : Fin 1) * 1024 + 1 * q.val = q.val; omega
  rw [hx, hwv, hwg, hwo, hγ, hβ]

/-! ## The blocks tile the output -/

/-- An index of the output is in point t's block iff each coordinate is in the block's range on its axis. -/
theorem mem_blk (t : Fin cfg0.N) (i : S16384x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v4).slice (win0_6.rect t)).set ↔ _
  rw [View.set_slice_whole, Rect.mem_set_unit]
  exact Iff.rfl

/-- Row r of the output is in the block of point r / 512. -/
theorem cover (i : S16384x1024.Idx) : ∃ t : Fin cfg0.N, (cfg0.win 6).flush t = true ∧ i ∈ ((cfg0.win 6).blk t).view.set := by
  have hi0 : (i 0).val < 16384 := (i 0).isLt
  have hi1 : (i 1).val < 1024 := (i 1).isLt
  obtain ⟨t, ht⟩ := idx_onto ⟨(i 0).val / 512, by omega⟩
  have ht' : t.val = (i 0).val / 512 := ht
  obtain ⟨-, -, e60, e61, -⟩ := idx_facts t
  refine ⟨t, flush0_6 t, ?_⟩
  rw [mem_blk]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

/-- The output array after the region is the flattened result of the arrays the region found. -/
theorem final (c : Dev nD) :
    (dats m 0 c).arrAt 6 cfg0.N = flat (arrX m c) (arrWv m c) (arrWg m c) (arrWo m c) (arrΓ m c) (arrΒ m c) :=
  (dats m 0 c).arrAt_eq_of_cover 6 _ (fun t _ => flushed_eq m c t) cover

end Cert.KernelIdeal.ArrValue

end
-- ==== Proof.KernelRun.lean ====
/-
  The kernel's run, read: after every weakly fair execution the result holds the specification's result of the
  argument arrays, and the arguments are unchanged.

  Before the region the host flattens the activations and converts the three weight matrices; after it, it unflattens
  the output. On the extended reals a format conversion is the identity, and unflattening the flattened result of the
  flattened activations is the specification's result.
-/
import proofs.«120194_j62302795596568_1_alg».proof.Proof.KernelArr

noncomputable section

namespace Cert.KernelIdeal.ArrValue

open Cert.KernelIdeal Cert.KernelIdeal.Gen Cert.KernelIdeal.RowValue Idealize.ShloMosaic Idealize.ShloMosaic.TcCoe Idealize.SL.Sem
open Idealize.ShloMosaic.ValueIdx Cert.GatedNorm
open Idealize.ShloMosaic.Pipeline (Dat)

variable (m : (ℓ : Loc nD τ sig) → Buf (Elt Ideal) ℓ) (ρ : Dev nD → PrngReg)

/-! ## The arrays the region finds -/

/-- The activations, flattened. -/
theorem arrX_eq (c : Dev nD) :
    arrX m c = shapeCast S16384x1024 (m ((c.tc : Thread nD τ).loc main_arg0)) shapeCasts_S4x4096x1024_S16384x1024 := by
  show StableHlo.after hostOps0 _ (Proc.devRef .tc main_v0) = _
  after_results
  rfl

/-- The three weight matrices, converted: the same values. -/
theorem arrWv_eq (c : Dev nD) : arrWv m c = m ((c.tc : Thread nD τ).loc main_arg3) := by
  show StableHlo.after hostOps0 _ (Proc.devRef .tc main_v1) = _
  after_results
  rfl

theorem arrWg_eq (c : Dev nD) : arrWg m c = m ((c.tc : Thread nD τ).loc main_arg4) := by
  show StableHlo.after hostOps0 _ (Proc.devRef .tc main_v2) = _
  after_results
  rfl

theorem arrWo_eq (c : Dev nD) : arrWo m c = m ((c.tc : Thread nD τ).loc main_arg6) := by
  show StableHlo.after hostOps0 _ (Proc.devRef .tc main_v3) = _
  after_results
  rfl

/-! ## The result after the host's last line -/

/-- The result is the region's output array, unflattened. -/
theorem tail_eq (c : Dev nD) :
    Pipeline.afterTail₀ cfgs (dats m) 0 (V0 m) [hostOps1] c main_v5
      = shapeCast S4x4096x1024 ((dats m 0 c).arrAt 6 cfg0.N) shapeCasts_S16384x1024_S4x4096x1024 := by
  unfold Pipeline.afterTail₀
  show StableHlo.after hostOps1 _ (Proc.devRef .tc main_v5) = _
  after_results
  have e : (Pipeline.withArrays (cfgs 0).spec c (V0 m c) (fun w => (dats m 0 c).arrAt w (cfgs 0).N) (Proc.devRef .tc main_v4) : S16384x1024.Idx → EReal)
      = (dats m 0 c).arrAt 6 cfg0.N :=
    Pipeline.withArrays_arr spec0 launch0.win.arr_inj c _ _ 6
  exact congrArg (fun A : S16384x1024.Idx → EReal => shapeCast S4x4096x1024 A shapeCasts_S16384x1024_S4x4096x1024) e

/-- The result is the specification's result of the argument arrays. -/
theorem result_eq (c : Dev nD) :
    Pipeline.afterTail₀ cfgs (dats m) 0 (V0 m) [hostOps1] c main_v5
      = result (m ((c.tc : Thread nD τ).loc main_arg0)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) := by
  rw [tail_eq, final, arrX_eq, arrWv_eq, arrWg_eq, arrWo_eq,
    show arrΓ m c = m ((c.tc : Thread nD τ).loc main_arg7) from V_main_arg7 m c, show arrΒ m c = m ((c.tc : Thread nD τ).loc main_arg8) from V_main_arg8 m c]
  exact unflatten_flat _ _ _ _ _ _ _ _

/-! ## The run -/

/-- Every weakly fair execution terminates with the result at the specification's result of the arguments and the
    arguments unchanged. -/
theorem run : θ_run defs (onTc (τ := τ) (main (F := Ideal))) ⟨m, fun _ => 0, ρ⟩ fun r => ∀ c : Dev nD,
      r.2.mem ((c.tc : Thread nD τ).loc main_v5)
        = result (m ((c.tc : Thread nD τ).loc main_arg0)) (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨
      ((h c).2 main_v5 (Pipeline.mem_restRefs_of main_v5 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).1 4).trans (((dats m 0 c).arrAt_in 4 rfl _).trans ((A_eq m c 4).trans (V_main_arg7 m c))),
      ((h c).1 5).trans (((dats m 0 c).arrAt_in 5 rfl _).trans ((A_eq m c 5).trans (V_main_arg8 m c)))⟩)
    (run_main m ρ)

end Cert.KernelIdeal.ArrValue

end
-- ==== Proof.RefRow.lean ====
/-
  The reference's result, read one output row at a time, is the row function of the specification.

  The reference computes on the whole [4, 4096, 1024] array; every stage of it that matters to the result is either
  pointwise, a product contracting the feature axis, a sum over the feature axis kept as a [4, 4096, 1] column, or a
  spread of such a column or of a [1024] vector back over the array. Read at (b, s, q), each stage is the matching
  piece of the specification of row (b, s) of the activations: the projections are sums over the contracted feature,
  the silu written out in negate, exponential, add and divide is the logistic function times its argument (the word
  for 1.0 is the extended real 1), and a sum started from the word for 0.0 is the sum.
-/
import proofs.«120194_j62302795596568_1_alg».proof.Proof.Gen.ReferenceIdeal.Read
import proofs.«120194_j62302795596568_1_alg».proof.Proof.Spec
import Idealize.ShloMosaic.Lib.IdealHost

noncomputable section

namespace Cert.ReferenceIdeal.RowValue

open Cert.ReferenceIdeal Cert.ReferenceIdeal.Gen Cert.ReferenceIdeal.Read Idealize.ShloMosaic Idealize.ShloMosaic.ValueIdx Cert.GatedNorm

variable (x0 : (⟨S4x4096x1024, .f32⟩ : BufTy).Contents (Elt Ideal)) (x3 x4 x6 : (⟨S1024x1024, .f32⟩ : BufTy).Contents (Elt Ideal)) (x7 x8 : (⟨S1024, .f32⟩ : BufTy).Contents (Elt Ideal))

/-- Row (b, s) of the activations. -/
abbrev rowOf (x : (⟨S4x4096x1024, .f32⟩ : BufTy).Contents (Elt Ideal)) (b : Fin 4) (s : Fin 4096) : Fin 1024 → EReal := fun d => x (ix3 b s d)
/-- A [1024, 1024] matrix by its two coordinates. -/
abbrev matOf (w : (⟨S1024x1024, .f32⟩ : BufTy).Contents (Elt Ideal)) : Fin 1024 → Fin 1024 → EReal := fun o d => w (ix2 o d)
/-- A [1024] vector by its coordinate. -/
abbrev vecOf (v : (⟨S1024, .f32⟩ : BufTy).Contents (Elt Ideal)) : Fin 1024 → EReal := fun q => v (ix1 q)

/-! ## The projections -/

theorem value_apply (b : Fin 4) (s : Fin 4096) (o : Fin 1024) :
    val_main_v2 (F := Ideal) x0 x3 (ix3 b s o) = proj (rowOf x0 b s) (matOf x3) o := by
  rw [val_main_v2_apply]
  unfold proj
  refine Finset.sum_congr rfl fun k _ => ?_
  have el : lidx_main_v2 (ix3 b s o) k = ix3 b s k := funext fun a => Fin.ext (by match a with | ⟨0, _⟩ => rfl | ⟨1, _⟩ => rfl | ⟨2, _⟩ => rfl)
  have er : ridx_main_v2 (ix3 b s o) k = ix2 o k := funext fun a => Fin.ext (by match a with | ⟨0, _⟩ => rfl | ⟨1, _⟩ => rfl)
  rw [el, er]

theorem gate_apply (b : Fin 4) (s : Fin 4096) (o : Fin 1024) :
    val_main_v3 (F := Ideal) x0 x4 (ix3 b s o) = proj (rowOf x0 b s) (matOf x4) o := by
  rw [val_main_v3_apply]
  unfold proj
  refine Finset.sum_congr rfl fun k _ => ?_
  have el : lidx_main_v3 (ix3 b s o) k = ix3 b s k := funext fun a => Fin.ext (by match a with | ⟨0, _⟩ => rfl | ⟨1, _⟩ => rfl | ⟨2, _⟩ => rfl)
  have er : ridx_main_v3 (ix3 b s o) k = ix2 o k := funext fun a => Fin.ext (by match a with | ⟨0, _⟩ => rfl | ⟨1, _⟩ => rfl)
  rw [el, er]

/-- The silu written out on the host is its argument times the logistic function of it. -/
theorem silu_apply (i : S4x4096x1024.Idx) :
    val_main_v10 (F := Ideal) x0 x4 i = val_main_v3 (F := Ideal) x0 x4 i * Ideal.logistic (val_main_v3 (F := Ideal) x0 x4 i) := by
  rw [val_main_v10_apply, val_main_call1_v5_apply, val_main_call1_v4_apply, val_main_call1_cst_0_apply, val_main_call1_v3_apply,
    val_main_call1_v2_apply, val_main_call1_cst_apply, val_main_call1_v1_apply, val_main_call1_v0_apply]
  simp only [Ideal.mulf_def, Ideal.hostDivf_def, Ideal.addf_def, Ideal.hostUnary_exp_def, Ideal.hostNegf_def, Ideal.negf_def,
    Ideal.ofBits_def, Ideal.ofBits_one_f32, Ideal.logistic]

theorem gated_apply (b : Fin 4) (s : Fin 4096) (v : Fin 1024) :
    val_main_v17 (F := Ideal) x0 x3 x4 (ix3 b s v) = gated (rowOf x0 b s) (matOf x3) (matOf x4) v := by
  rw [val_main_v17_apply, silu_apply, value_apply, gate_apply]
  rfl

theorem resid_apply (b : Fin 4) (s : Fin 4096) (e : Fin 1024) :
    val_main_v19 (F := Ideal) x0 x3 x4 x6 (ix3 b s e) = resid (rowOf x0 b s) (matOf x3) (matOf x4) (matOf x6) e := by
  rw [val_main_v19_apply, val_main_v18_apply]
  unfold resid proj
  refine congrArg (· + x0 (ix3 b s e)) ?_
  refine Finset.sum_congr rfl fun k _ => ?_
  have el : lidx_main_v18 (ix3 b s e) k = ix3 b s k := funext fun a => Fin.ext (by match a with | ⟨0, _⟩ => rfl | ⟨1, _⟩ => rfl | ⟨2, _⟩ => rfl)
  have er : ridx_main_v18 (ix3 b s e) k = ix2 e k := funext fun a => Fin.ext (by match a with | ⟨0, _⟩ => rfl | ⟨1, _⟩ => rfl)
  rw [el, er, gated_apply]

/-! ## The row statistics -/

/-- The row of the pre-normalisation array. -/
abbrev preRow (b : Fin 4) (s : Fin 4096) : Fin 1024 → EReal := fun e => val_main_v19 (F := Ideal) x0 x3 x4 x6 (ix3 b s e)

theorem mean_apply (b : Fin 4) (s : Fin 4096) (u : Fin 1) :
    val_main_v23 (F := Ideal) x0 x3 x4 x6 (ix3 b s u) = mean (preRow x0 x3 x4 x6 b s) := by
  rw [val_main_v23_apply, val_main_v21_apply, val_main_v20_apply, val_main_v22_apply, val_main_cst_3_apply, val_main_cst_2_apply]
  unfold mean
  simp only [Ideal.hostDivf_def, Ideal.ofBits_def, Ideal.ofBits_zero_f32, zero_add]
  refine congrArg (fun z => Ideal.div z (Ideal.ofBits .f32 0x44800000#32)) ?_
  refine Finset.sum_congr rfl fun k _ => ?_
  exact congrArg (val_main_v19 (F := Ideal) x0 x3 x4 x6) (funext fun a => Fin.ext (by match a with | ⟨0, _⟩ => rfl | ⟨1, _⟩ => rfl | ⟨2, _⟩ => rfl))

theorem centred_apply (b : Fin 4) (s : Fin 4096) (e : Fin 1024) :
    val_main_v25 (F := Ideal) x0 x3 x4 x6 (ix3 b s e) = centred (preRow x0 x3 x4 x6 b s) e := by
  rw [val_main_v25_apply, val_main_v24_apply]
  have ei : idx_main_v24 (ix3 b s e) = ix3 b s (0 : Fin 1) := funext fun a => Fin.ext (by match a with | ⟨0, _⟩ => rfl | ⟨1, _⟩ => rfl | ⟨2, _⟩ => rfl)
  rw [ei, mean_apply]
  rfl

theorem centred_apply' (b : Fin 4) (s : Fin 4096) (e : Fin 1024) :
    val_main_v32 (F := Ideal) x0 x3 x4 x6 (ix3 b s e) = centred (preRow x0 x3 x4 x6 b s) e := by
  rw [val_main_v32_apply, val_main_v31_apply]
  have ei : idx_main_v31 (ix3 b s e) = ix3 b s (0 : Fin 1) := funext fun a => Fin.ext (by match a with | ⟨0, _⟩ => rfl | ⟨1, _⟩ => rfl | ⟨2, _⟩ => rfl)
  rw [ei, mean_apply]
  rfl

theorem var_apply (b : Fin 4) (s : Fin 4096) (u : Fin 1) :
    val_main_v30 (F := Ideal) x0 x3 x4 x6 (ix3 b s u)
      = mean (fun e => centred (preRow x0 x3 x4 x6 b s) e * centred (preRow x0 x3 x4 x6 b s) e) := by
  rw [val_main_v30_apply, val_main_v28_apply, val_main_v27_apply, val_main_v29_apply, val_main_cst_5_apply, val_main_cst_4_apply]
  unfold mean
  simp only [Ideal.hostDivf_def, Ideal.ofBits_def, Ideal.ofBits_zero_f32, zero_add]
  refine congrArg (fun z => Ideal.div z (Ideal.ofBits .f32 0x44800000#32)) ?_
  refine Finset.sum_congr rfl fun k _ => ?_
  have ei : idx_main_v27 (idx_main_v28 (ix3 b s u)) k = ix3 b s k := funext fun a => Fin.ext (by match a with | ⟨0, _⟩ => rfl | ⟨1, _⟩ => rfl | ⟨2, _⟩ => rfl)
  rw [ei, val_main_v26_apply, centred_apply]
  rfl

theorem rstd_apply (b : Fin 4) (s : Fin 4096) (q : Fin 1024) :
    val_main_v36 (F := Ideal) x0 x3 x4 x6 (ix3 b s q)
      = Ideal.rsqrt (mean (fun e => centred (preRow x0 x3 x4 x6 b s) e * centred (preRow x0 x3 x4 x6 b s) e) + Ideal.ofBits .f32 0x3727C5AC#32) := by
  rw [val_main_v36_apply]
  have ei : idx_main_v36 (ix3 b s q) = ix3 b s (0 : Fin 1) := funext fun a => Fin.ext (by match a with | ⟨0, _⟩ => rfl | ⟨1, _⟩ => rfl | ⟨2, _⟩ => rfl)
  rw [ei, val_main_v35_apply, val_main_v34_apply, var_apply, val_main_v33_apply, val_main_cst_6_apply]
  rfl

/-! ## Scale, shift, and the result -/

theorem scale_apply (b : Fin 4) (s : Fin 4096) (q : Fin 1024) : val_main_v39 (F := Ideal) x7 (ix3 b s q) = x7 (ix1 q) := by
  rw [val_main_v39_apply, val_main_v38_apply]
  exact congrArg x7 (funext fun a => Fin.ext (by match a with | ⟨0, _⟩ => rfl))

theorem shift_apply (b : Fin 4) (s : Fin 4096) (q : Fin 1024) : val_main_v42 (F := Ideal) x8 (ix3 b s q) = x8 (ix1 q) := by
  rw [val_main_v42_apply, val_main_v41_apply]
  exact congrArg x8 (funext fun a => Fin.ext (by match a with | ⟨0, _⟩ => rfl))

/-- Entry (b, s, q) of the reference's result is the specification's row function of row (b, s). -/
theorem out_apply (b : Fin 4) (s : Fin 4096) (q : Fin 1024) :
    val_main_v43 (F := Ideal) x0 x3 x4 x6 x7 x8 (ix3 b s q)
      = rowOut (rowOf x0 b s) (matOf x3) (matOf x4) (matOf x6) (vecOf x7) (vecOf x8) q := by
  rw [val_main_v43_apply, val_main_v40_apply, val_main_v37_apply, centred_apply', rstd_apply, scale_apply, shift_apply]
  have hrow : preRow x0 x3 x4 x6 b s = resid (rowOf x0 b s) (matOf x3) (matOf x4) (matOf x6) :=
    funext fun e => resid_apply x0 x3 x4 x6 b s e
  rw [hrow]
  rfl

/-- The whole result array is the specification's. -/
theorem out_eq : val_main_v43 (F := Ideal) x0 x3 x4 x6 x7 x8 = result x0 x3 x4 x6 x7 x8 := by
  funext i
  obtain ⟨b, s, q, rfl⟩ : ∃ (b : Fin 4) (s : Fin 4096) (q : Fin 1024), i = ix3 b s q := ⟨i 0, i 1, i 2, eq_ix3 i⟩
  exact out_apply x0 x3 x4 x6 x7 x8 b s q

end Cert.ReferenceIdeal.RowValue

end
-- ==== Proof.lean ====
/-
  A gated projection with a residual and a layer normalisation, one output row at a time.

  Both programs compute, for every row x of the [4, 4096, 1024] activations,
      y = LayerNorm ((V · silu g) · W_Oᵀ + x) · γ + β,   V = x · W_Vᵀ,  g = x · W_gᵀ,
  with the mean and the variance taken over the row's 1024 features, the same two f32 words for 1024 and for ε on both
  sides, and the reciprocal square root of the variance plus ε. The kernel flattens the activations to 16384 rows,
  works on 32 blocks of 512 rows with the three weight matrices converted to a narrower float format, uses the
  logistic function for the silu and leaves out three projections whose results the reference never uses; the
  reference works on the whole array and writes the silu out in negate, exponential, add and divide. On the extended
  reals a format conversion is the identity, the logistic function IS that expression, a matrix product into a zero
  accumulator and a sum started at zero are plain sums over the contracted feature, and a row-major reshape moves whole
  rows: so both results are ONE function of the argument arrays (Proof/Spec.lean's `result`), and no algebraic law
  beyond re-indexing joins the two sides; the precondition is never opened.

  Proof/KernelRow.lean and Proof/KernelBlock.lean read the kernel's block at an entry, Proof/KernelArr.lean tiles the
  32 blocks into the output array, Proof/KernelRun.lean carries it through the host's reshapes to the run;
  Proof/RefRow.lean reads the reference's result at an entry; Proof/Flat.lean is the reshape between the two layouts.
-/
import proofs.«120194_j62302795596568_1_alg».proof.Defs
import proofs.«120194_j62302795596568_1_alg».proof.Proof.Gen.Kernel
import proofs.«120194_j62302795596568_1_alg».proof.Proof.Gen.Kernel.Skeleton
import proofs.«120194_j62302795596568_1_alg».proof.Proof.Gen.Kernel.Launch
import proofs.«120194_j62302795596568_1_alg».proof.Proof.Gen.Kernel.Points
import proofs.«120194_j62302795596568_1_alg».proof.Proof.Gen.Kernel.Frame
import proofs.«120194_j62302795596568_1_alg».proof.Proof.Gen.KernelIdeal
import proofs.«120194_j62302795596568_1_alg».proof.Proof.Gen.KernelIdeal.Skeleton
import proofs.«120194_j62302795596568_1_alg».proof.Proof.Gen.KernelIdeal.Launch
import proofs.«120194_j62302795596568_1_alg».proof.Proof.Gen.KernelIdeal.Points
import proofs.«120194_j62302795596568_1_alg».proof.Proof.Gen.KernelIdeal.Frame
import proofs.«120194_j62302795596568_1_alg».proof.Proof.Gen.ReferenceIdeal
import proofs.«120194_j62302795596568_1_alg».proof.Proof.Gen.ReferenceIdeal.Run
import proofs.«120194_j62302795596568_1_alg».proof.Proof.Gen.ReferenceIdeal.Read
import proofs.«120194_j62302795596568_1_alg».proof.Proof.Gen.Pre_finite_inputs
import proofs.«120194_j62302795596568_1_alg».proof.Proof.KernelRun
import proofs.«120194_j62302795596568_1_alg».proof.Proof.RefRow
import Idealize.ShloMosaic.Adequacy
import Idealize.ShloMosaic.Init

noncomputable section

namespace Cert.Proof

open Idealize.ShloMosaic Idealize.SL.Sem Cert.GatedNorm

/-- The word-level kernel runs, and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the specification's result of those
    arguments: the kernel's run read through its blocks and the host's reshapes, the reference's run read entry by
    entry. -/
theorem algebraic : Cert.algebraic_KernelIdeal_ReferenceIdeal := by
  intro m ρ m' ρ' _ hagree
  refine ⟨fun c => result (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.ArrValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v43_eq, Cert.ReferenceIdeal.RowValue.out_eq, h0, h3, h4, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
